-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x200000 : Shape := ⟨2, ![256, 200000]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S200000x256 .f32) (main_arg1 : IVec S256x200000 32) (main_arg2 : FVec F S256x256 .f32) (main_arg3 : FVec F S256 .f32) (main_arg4 : FVec F S256x256 .f32) (main_arg5 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S200000x256 : Shape := ⟨2, ![200000, 256]⟩
abbrev S256x200000 : Shape := ⟨2, ![256, 200000]⟩
abbrev S256x256 : Shape := ⟨2, ![256, 256]⟩
abbrev S256 : Shape := ⟨1, ![256]⟩
abbrev S_ : Shape := ⟨0, ![]⟩
abbrev S200704x256 : Shape := ⟨2, ![200704, 256]⟩
abbrev S256x200704 : Shape := ⟨2, ![256, 200704]⟩
abbrev S1x256 : Shape := ⟨2, ![1, 256]⟩
abbrev S2x256x256 : Shape := ⟨3, ![2, 256, 256]⟩
abbrev S2048x256 : Shape := ⟨2, ![2048, 256]⟩
abbrev S256x2048 : Shape := ⟨2, ![256, 2048]⟩
abbrev S1x256x256 : Shape := ⟨3, ![1, 256, 256]⟩

abbrev nBuf : Space → Nat
  | .hbm => 22
  | .vmem => 11
  | .smem => 0
  | _ => 0

abbrev bufTy : (tb : Table) → Fin (tcTables nBuf tb) → BufTy
  | .hbm, ⟨0, _⟩ => ⟨S200000x256, .f32⟩
  | .hbm, ⟨1, _⟩ => ⟨S256x200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S200704x256, .f32⟩
  | .hbm, ⟨9, _⟩ => ⟨S_, .i32⟩
  | .hbm, ⟨10, _⟩ => ⟨S_, .i32⟩
  | .hbm, ⟨11, _⟩ => ⟨S256x200704, .i32⟩
  | .hbm, ⟨12, _⟩ => ⟨S256x256, .f32⟩
  | .hbm, ⟨13, _⟩ => ⟨S256x256, .f32⟩
  | .hbm, ⟨14, _⟩ => ⟨S1x256, .f32⟩
  | .hbm, ⟨15, _⟩ => ⟨S1x256, .f32⟩
  | .hbm, ⟨16, _⟩ => ⟨S2x256x256, .f32⟩
  | .hbm, ⟨17, _⟩ => ⟨S1x256x256, .f32⟩
  | .hbm, ⟨18, _⟩ => ⟨S256x256, .f32⟩
  | .hbm, ⟨19, _⟩ => ⟨S1x256x256, .f32⟩
  | .hbm, ⟨20, _⟩ => ⟨S256x256, .f32⟩
  | .hbm, ⟨21, _⟩ => ⟨S256x256, .f32⟩
  | .local _ .vmem, ⟨0, _⟩ => ⟨S2048x256, .f32⟩
  | .local _ .vmem, ⟨1, _⟩ => ⟨S2048x256, .f32⟩
  | .local _ .vmem, ⟨2, _⟩ => ⟨S256x2048, .i32⟩
  | .local _ .vmem, ⟨3, _⟩ => ⟨S256x2048, .i32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256x256, .f32⟩
  | .local _ .vmem, ⟨9, _⟩ => ⟨S1x256x256, .f32⟩
  | .local _ .vmem, ⟨10, _⟩ => ⟨S256x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v35 : BitVec 1 := Scalar.cmpi .eq arg1 c48_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  pads_S200000x256_S200704x256_07040_000 : S200000x256.Pads (![0, 0] : Fin 2 → Nat) ![704, 0] ![0, 0] S200704x256
  h_S_ : 0 < S_.numel
  pads_S256x200000_S256x200704_000_07040 : S256x200000.Pads (![0, 0] : Fin 2 → Nat) ![0, 704] ![0, 0] S256x200704
  transposes_S256x256_S256x256_1_0 : S256x256.Transposes [1, 0] S256x256
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  slices_S2x256x256_S1x256x256_0_0_0 : S2x256x256.Slices ![0, 0, 0] S1x256x256
  slices_S2x256x256_S1x256x256_1_0_0 : S2x256x256.Slices ![1, 0, 0] S1x256x256
  dot_S2048x256_S256x256_S2048x256_1_0_0_1_n_n_wf : DotDims.WF S2048x256 S256x256 S2048x256 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S200704x256.size a
  hwx0_0 : ∀ i : grid0.Coords, EltTy.bits .f32 = 32 ∨ (Rect.block (s := S200704x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x200704.size a
  hwx0_1 : ∀ i : grid0.Coords, EltTy.bits .i32 = 32 ∨ (Rect.block (s := S256x200704) S256x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S2x256x256.size a
  hwx0_6 : ∀ i : grid0.Coords, EltTy.bits .f32 = 32 ∨ (Rect.block (s := S2x256x256) S1x256x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S200000x256 : Shape := ⟨2, ![200000, 256]⟩
abbrev S256x200000 : Shape := ⟨2, ![256, 200000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256x200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S200000x256, .f32⟩
  | .hbm, ⟨8, _⟩ => ⟨S1x256, .f32⟩
  | .hbm, ⟨9, _⟩ => ⟨S200000x256, .f32⟩
  | .hbm, ⟨10, _⟩ => ⟨S200000x256, .f32⟩
  | .hbm, ⟨11, _⟩ => ⟨S200000x256, .f32⟩
  | .hbm, ⟨12, _⟩ => ⟨S200000x256, .f32⟩
  | .hbm, ⟨13, _⟩ => ⟨S_, .f32⟩
  | .hbm, ⟨14, _⟩ => ⟨S200000x256, .f32⟩
  | .hbm, ⟨15, _⟩ => ⟨S200000x256, .f32⟩
  | .hbm, ⟨16, _⟩ => ⟨S_, .f32⟩
  | .hbm, ⟨17, _⟩ => ⟨S200000x256, .f32⟩
  | .hbm, ⟨18, _⟩ => ⟨S200000x256, .f32⟩
  | .hbm, ⟨19, _⟩ => ⟨S256x256, .f32⟩
  | .hbm, ⟨20, _⟩ => ⟨S200000x256, .f32⟩
  | .hbm, ⟨21, _⟩ => ⟨S1x256, .f32⟩
  | .hbm, ⟨22, _⟩ => ⟨S200000x256, .f32⟩
  | .hbm, ⟨23, _⟩ => ⟨S200000x256, .f32⟩
  | .hbm, ⟨24, _⟩ => ⟨S256x200000, .f32⟩
  | .hbm, ⟨25, _⟩ => ⟨S200000x256, .f32⟩
  | .hbm, ⟨26, _⟩ => ⟨S256x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  dot_S200000x256_S256x256_S200000x256_1_0_0_1_n_n_wf : DotDims.WF S200000x256 S256x256 S200000x256 [1] [0] [0] [1] [] []
  dot_S256x200000_S200000x256_S256x256_1_0_0_1_n_n_wf : DotDims.WF S256x200000 S200000x256 S256x256 [1] [0] [0] [1] [] []

variable [Facts₀]

def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S256x200000_S200000x256_S256x256_1_0_0_1_n_n : DotDims S256x200000 S200000x256 S256x256 where
  lhsContracting := [1]
  rhsContracting := [0]
  lhsNonContracting := [0]
  rhsNonContracting := [1]
  lhsBatch := []
  rhsBatch := []
  wf := dot_S256x200000_S200000x256_S256x256_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.GatedSum.lean ====
/-
  The masked sum of gated node features, and the laws of finite sums that let a tiled, padded, per-core
  accumulation be read as that one sum.

  A node's feature row `x` (256 entries) passes through two dense layers with the same input: a data layer
  `x · Wt + bt` and a gate layer `x · Wg + bg`; the node contributes `data · logistic(gate)`, entry by entry.
  Owner `b` collects `∑ₙ mask(b, n) · gated(xₙ)` over all nodes.

  The sums here are over the extended reals, a commutative monoid under addition, so regrouping a sum by
  tiles, splitting it between two halves, or dropping positions whose term is zero needs no finiteness.
-/
import proofs.«164850_j76501957477036_1_alg».proof.Proof.LibRowOps

noncomputable section

open scoped BigOperators

namespace GatedSum

open Idealize.ShloMosaic Idealize.ShloMosaic.ValueIdx Finset

/-- One node's gated feature: the data layer's entry times the logistic function of the gate layer's entry.
    `Wt`, `Wg` are the weight matrices laid out input × output; `bt`, `bg` the biases. -/
def gated (Wt Wg : (⟨2, ![256, 256]⟩ : Shape).Idx → EReal) (bt bg : (⟨1, ![256]⟩ : Shape).Idx → EReal)
    (x : Fin 256 → EReal) (d : Fin 256) : EReal :=
  RowOps.dense Wt bt x d * Ideal.logistic (RowOps.dense Wg bg x d)

/-- The whole result: owner `b`'s entry `d` is the sum over all nodes of the owner's mask entry times the node's
    gated feature. `maskF` is the mask already read as numbers. -/
def agg (nodes : (⟨2, ![200000, 256]⟩ : Shape).Idx → EReal) (maskF : (⟨2, ![256, 200000]⟩ : Shape).Idx → EReal)
    (Wt Wg : (⟨2, ![256, 256]⟩ : Shape).Idx → EReal) (bt bg : (⟨1, ![256]⟩ : Shape).Idx → EReal) :
    (⟨2, ![256, 256]⟩ : Shape).Idx → EReal :=
  fun j => ∑ n : Fin 200000, maskF (ix2 (j 0) n) * gated Wt Wg bt bg (fun k => nodes (ix2 n k)) (j 1)

section Sums
variable {M : Type} [AddCommMonoid M]

/-- A sum over `n` consecutive tiles of `B` positions each is the sum over the `n * B` positions. -/
theorem sum_tiles (f : ℕ → M) (B : ℕ) :
    ∀ n : ℕ, ∑ T ∈ range n, ∑ r ∈ range B, f (T * B + r) = ∑ i ∈ range (n * B), f i
  | 0 => by simp
  | n + 1 => by rw [sum_range_succ, sum_tiles f B n, Nat.succ_mul, sum_range_add]

/-- Positions from `N` on whose terms are all zero may be dropped from the sum. -/
theorem sum_drop_tail (g : ℕ → M) (N P : ℕ) (h : ∀ i, N ≤ i → g i = 0) :
    ∑ i ∈ range (N + P), g i = ∑ i ∈ range N, g i := by
  rw [sum_range_add, sum_eq_zero (fun i _ => h _ (Nat.le_add_right _ _)), add_zero]

/-- An accumulator that is reset at every 49th point and otherwise adds the point's term holds, after point
    `n`, the sum of the terms since the last reset: those of points `49·(n / 49)` up to `n`. -/
theorem acc_reset_eq (p : ℕ → M) (N : ℕ) (a : (n : ℕ) → n < N → M) (h0 : ∀ h, a 0 h = 0 + p 0)
    (hA : ∀ n (h : n + 1 < N), (n + 1) % 49 = 0 → a (n + 1) h = 0 + p (n + 1))
    (hB : ∀ n (h : n + 1 < N), (n + 1) % 49 ≠ 0 → a (n + 1) h = a n (Nat.lt_of_succ_lt h) + p (n + 1)) :
    ∀ n (h : n < N), a n h = ∑ j ∈ range (n % 49 + 1), p (n / 49 * 49 + j)
  | 0, h => by rw [h0 h]; simp
  | n + 1, h => by
    by_cases hr : (n + 1) % 49 = 0
    · rw [hA n h hr, hr, zero_add, sum_range_one, Nat.add_zero, Nat.div_mul_cancel (Nat.dvd_of_mod_eq_zero hr)]
    · rw [hB n h hr, acc_reset_eq p N a h0 hA hB n (Nat.lt_of_succ_lt h)]
      have e1 : (n + 1) % 49 = n % 49 + 1 := by omega
      have e2 : (n + 1) / 49 = n / 49 := by omega
      rw [e1, e2, sum_range_succ (fun j => p (n / 49 * 49 + j)) (n % 49 + 1)]
      have e3 : n / 49 * 49 + (n % 49 + 1) = n + 1 := by omega
      rw [e3]

end Sums

end GatedSum

end
-- ==== Proof.RefSide.lean ====
/-
  The reference program's result, entry by entry, is the masked sum of gated node features.

  The reference forms both dense layers of every node at once (a matrix product with the transposed weights plus
  the bias broadcast down the rows), spells the logistic function as one over one plus the exponential of the
  negation, multiplies the two, and contracts the converted mask against the product over the node axis.
  Read at an entry `(b, d)` that contraction is the sum over the nodes; read at a node each layer is the
  row-level dense layer, and the spelled-out quotient is the logistic function.
-/
import proofs.«164850_j76501957477036_1_alg».proof.Proof.Gen.ReferenceIdeal.Run
import proofs.«164850_j76501957477036_1_alg».proof.Proof.GatedSum

noncomputable section

open scoped BigOperators

namespace Cert.ReferenceIdeal.RefValue

open Cert.ReferenceIdeal Cert.ReferenceIdeal.Gen Idealize.ShloMosaic Idealize.ShloMosaic.ValueIdx

/-- The reference's composed term is `GatedSum.agg` of the arguments, with the weights in their transposed layout. -/
theorem ref_eq (nodes : FVec Ideal S200000x256 .f32) (mask : IVec S256x200000 32) (W2 W4 : FVec Ideal S256x256 .f32)
    (b3 b5 : FVec Ideal S256 .f32) :
    Host.dotGeneral dot_S256x200000_S200000x256_S256x256_1_0_0_1_n_n none (sitofp .f32 mask)
      (mulf
        (addf (Host.dotGeneral dot_S200000x256_S256x256_S200000x256_1_0_0_1_n_n none nodes
            (transpose S256x256 [1, 0] W2 transposes_S256x256_S256x256_1_0))
          (broadcastInDim S200000x256 ![0, 1] bcast_S1x256_S200000x256_0_1 (broadcastInDim S1x256 ![1] bcast_S256_S1x256_1 b3)))
        (Host.divf (broadcastInDim S200000x256 ![] bcast_S_S200000x256 (constant S_ .f32 0x3F800000#32))
          (addf (broadcastInDim S200000x256 ![] bcast_S_S200000x256 (constant S_ .f32 0x3F800000#32))
            (Host.exp (Host.negf
              (addf (Host.dotGeneral dot_S200000x256_S256x256_S200000x256_1_0_0_1_n_n none nodes
                  (transpose S256x256 [1, 0] W4 transposes_S256x256_S256x256_1_0))
                (broadcastInDim S200000x256 ![0, 1] bcast_S1x256_S200000x256_0_1 (broadcastInDim S1x256 ![1] bcast_S256_S1x256_1 b5))))))))
    = GatedSum.agg nodes (sitofp (F := Ideal) .f32 mask) (transpose S256x256 [1, 0] W2 transposes_S256x256_S256x256_1_0)
        (transpose S256x256 [1, 0] W4 transposes_S256x256_S256x256_1_0) b3 b5 := by
  funext j
  obtain ⟨b, d, rfl⟩ : ∃ (b : Fin 256) (d : Fin 256), j = ix2 b d := ⟨j 0, j 1, eq_ix2 j⟩
  refine (RowOps.dotGeneral_plain_apply dot_S256x200000_S200000x256_S256x256_1_0_0_1_n_n rfl none _ _ b d).trans ?_
  unfold GatedSum.agg
  refine Finset.sum_congr rfl fun n _ => ?_
  refine congrArg (fun z => sitofp (F := Ideal) .f32 mask (ix2 b n) * z) ?_
  show addf _ _ (ix2 n d) * Host.divf _ _ (ix2 n d) = _
  rw [RowOps.dense_host_apply' dot_S200000x256_S256x256_S200000x256_1_0_0_1_n_n rfl, RowOps.logistic_host_apply,
    RowOps.dense_host_apply' dot_S200000x256_S256x256_S200000x256_1_0_0_1_n_n rfl]
  rfl

end Cert.ReferenceIdeal.RefValue

end
-- ==== Proof.KernelPieces.lean ====
/-
  What one run of the kernel body leaves behind, read as values.

  The body keeps a running [256, 256] accumulator in a scratch buffer.  At the first tile of a core's half it
  stores zeros there first; at every tile it then stores the accumulator plus the tile's partial product; at
  the last tile of the half it copies the accumulator into the output block.  Each of these is one store that
  covers its whole buffer, so what the buffer holds afterwards is that store's value.
-/
import proofs.«164850_j76501957477036_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the scratch holding `xs0` ends at the update of `xs0` by the tile's blocks. -/
theorem scratch_B (c : Dev nD) (i : grid0.Coords) (a2 : Memref sig .tc .vmem S2048x256 .f32) (h2 : a2.IsWhole) (a3 : Memref sig .tc .vmem S256x2048 .i32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x256x256 .f32) (h8 : a8.IsWhole) (a9 : Memref sig .tc .vmem S256x256 .f32) (h9 : a9.IsWhole) (hc0 : ¬cond0_0 i) (hc1 : ¬cond0_1 i)
    (x0 : Vec F S2048x256 .f32) (x1 : Vec F S256x2048 .i32) (x2 : Vec F S256x256 .f32) (x3 : Vec F S1x256 .f32) (x4 : Vec F S256x256 .f32) (x5 : Vec F S1x256 .f32) (xs0 : Vec F S256x256 .f32) :
    sout0_B_0 c i a2 h2 a3 h3 a4 h4 a5 h5 a6 h6 a7 h7 a8 h8 a9 h9 hc0 hc1 x0 x1 x2 x3 x4 x5 xs0 = k0_pay3 x0 x2 x4 x3 x5 x1 xs0 := by
  unfold sout0_B_0
  rw [View.read_writes_eq_canon _ _ _ (scover0_B_0 c i a2 h2 a3 h3 a4 h4 a5 h5 a6 h6 a7 h7 a8 h8 a9 h9 hc0 hc1 x0 x1 x2 x3 x4 x5 xs0)]
  unfold kernelRun0_B
  dsimp only
  rw [View.canon_unit_zero hz2]
  simp only [View.readAt_eq_ld, h2.read_unread, h3.read_unread, h4.read_unread, h5.read_unread, h6.read_unread, h7.read_unread, h9.read_unread,
    View.ld_unit_zero (S := S2048x256) hz2, View.ld_unit_zero (S := S256x256) hz2, View.ld_unit_zero (S := S1x256) hz2, View.ld_unit_zero (S := S256x2048) hz2]

/-- The last tile of a half: the same update of the scratch. -/
theorem scratch_C (c : Dev nD) (i : grid0.Coords) (a2 : Memref sig .tc .vmem S2048x256 .f32) (h2 : a2.IsWhole) (a3 : Memref sig .tc .vmem S256x2048 .i32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x256x256 .f32) (h8 : a8.IsWhole) (a9 : Memref sig .tc .vmem S256x256 .f32) (h9 : a9.IsWhole) (hc0 : ¬cond0_0 i) (hc1 : cond0_1 i)
    (x0 : Vec F S2048x256 .f32) (x1 : Vec F S256x2048 .i32) (x2 : Vec F S256x256 .f32) (x3 : Vec F S1x256 .f32) (x4 : Vec F S256x256 .f32) (x5 : Vec F S1x256 .f32) (xs0 : Vec F S256x256 .f32) :
    sout0_C_0 c i a2 h2 a3 h3 a4 h4 a5 h5 a6 h6 a7 h7 a8 h8 a9 h9 hc0 hc1 x0 x1 x2 x3 x4 x5 xs0 = k0_pay3 x0 x2 x4 x3 x5 x1 xs0 := by
  unfold sout0_C_0
  rw [View.read_writes_eq_canon _ _ _ (scover0_C_0 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz2]
  simp only [View.readAt_eq_ld, h2.read_unread, h3.read_unread, h4.read_unread, h5.read_unread, h6.read_unread, h7.read_unread, h9.read_unread,
    View.ld_unit_zero (S := S2048x256) hz2, View.ld_unit_zero (S := S256x256) hz2, View.ld_unit_zero (S := S1x256) hz2, View.ld_unit_zero (S := S256x2048) hz2]

/-- The last tile of a half: the output block is the updated scratch, given a leading unit axis. -/
theorem out_C (c : Dev nD) (i : grid0.Coords) (a2 : Memref sig .tc .vmem S2048x256 .f32) (h2 : a2.IsWhole) (a3 : Memref sig .tc .vmem S256x2048 .i32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x256x256 .f32) (h8 : a8.IsWhole) (a9 : Memref sig .tc .vmem S256x256 .f32) (h9 : a9.IsWhole) (hc0 : ¬cond0_0 i) (hc1 : cond0_1 i)
    (x0 : Vec F S2048x256 .f32) (x1 : Vec F S256x2048 .i32) (x2 : Vec F S256x256 .f32) (x3 : Vec F S1x256 .f32) (x4 : Vec F S256x256 .f32) (x5 : Vec F S1x256 .f32) (xs0 : Vec F S256x256 .f32) :
    out0_C_6 c i a2 h2 a3 h3 a4 h4 a5 h5 a6 h6 a7 h7 a8 h8 a9 h9 hc0 hc1 x0 x1 x2 x3 x4 x5 xs0 = k0_pay1 (k0_pay3 x0 x2 x4 x3 x5 x1 xs0) := by
  unfold out0_C_6
  rw [View.read_writes_eq_canon _ _ _ (cover0_C_6 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz3]
  simp only [View.readAt_eq_ld, h2.read_unread, h3.read_unread, h4.read_unread, h5.read_unread, h6.read_unread, h7.read_unread, h9.read_unread,
    View.ld_unit_zero (S := S2048x256) hz2, View.ld_unit_zero (S := S256x256) hz2, View.ld_unit_zero (S := S1x256) hz2, View.ld_unit_zero (S := S256x2048) hz2, View.readCov_unit_zero (S := S256x256) _ hz2]

/-- The first tile of a half: the scratch is zeroed, read back, and updated. -/
theorem scratch_A (c : Dev nD) (i : grid0.Coords) (a2 : Memref sig .tc .vmem S2048x256 .f32) (h2 : a2.IsWhole) (a3 : Memref sig .tc .vmem S256x2048 .i32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x256x256 .f32) (h8 : a8.IsWhole) (a9 : Memref sig .tc .vmem S256x256 .f32) (h9 : a9.IsWhole) (hc0 : cond0_0 i) (hc1 : ¬cond0_1 i)
    (x0 : Vec F S2048x256 .f32) (x1 : Vec F S256x2048 .i32) (x2 : Vec F S256x256 .f32) (x3 : Vec F S1x256 .f32) (x4 : Vec F S256x256 .f32) (x5 : Vec F S1x256 .f32) :
    sout0_A_0 c i a2 h2 a3 h3 a4 h4 a5 h5 a6 h6 a7 h7 a8 h8 a9 h9 hc0 hc1 x0 x1 x2 x3 x4 x5 = k0_pay3 x0 x2 x4 x3 x5 x1 (k0_pay2 (F := F)) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S256x256) hz2, View.readCov_unit_zero (S := S256x256) _ hz2]
  simp only [View.readAt_eq_ld, h2.read_unread, h3.read_unread, h4.read_unread, h5.read_unread, h6.read_unread, h7.read_unread, h9.read_unread,
    View.ld_unit_zero (S := S2048x256) hz2, View.ld_unit_zero (S := S256x256) hz2, View.ld_unit_zero (S := S1x256) hz2, View.ld_unit_zero (S := S256x2048) hz2]

end Cert.KernelIdeal.Pieces

end
-- ==== Proof.KernelPayload.lean ====
/-
  One tile's update of the accumulator, entry by entry, at the ideal values.

  The body narrows its operands to bf16 (the identity on ideal values), forms the tile's data layer and gate
  layer as matrix products into zero plus a bias row, multiplies the data by the logistic function of the
  gate, and contracts the converted mask block against that product over the tile's 2048 rows.  So entry
  `(b, d)` of the accumulator grows by `∑ᵣ mask(b, r) · gated(xᵣ) d`, the sum over the tile's rows.
-/
import proofs.«164850_j76501957477036_1_alg».proof.Proof.Gen.KernelIdeal.Skeleton
import proofs.«164850_j76501957477036_1_alg».proof.Proof.GatedSum

noncomputable section

open scoped BigOperators

namespace Cert.KernelIdeal.Payload

open Cert.KernelIdeal Cert.KernelIdeal.Gen Idealize.ShloMosaic Idealize.ShloMosaic.ValueIdx

/-- The zero block the first tile stores reads zero everywhere. -/
theorem pay2_apply (j : S256x256.Idx) : k0_pay2 (F := Ideal) j = 0 := by
  unfold k0_pay2
  simp only [shapeCast_self]
  show Ideal.ofBits .f32 0x00000000#32 = 0
  exact Ideal.ofBits_zero_f32

/-- The output block is the accumulator under a leading unit axis. -/
theorem pay1_apply (v : Vec Ideal S256x256 .f32) (b d : Fin 256) :
    k0_pay1 (F := Ideal) v (ix3 (0 : Fin 1) b d) = v (ix2 b d) := by
  unfold k0_pay1
  refine shapeCast_apply v _ _ _ ?_
  rw [Shape.rowMajor_val_three, Shape.rowMajor_val_two]
  show b.val * 256 + d.val = (0 * 256 + b.val) * 256 + d.val
  omega

/-- The tile's update at entry `(b, d)`: the accumulator's entry plus the tile's masked sum of gated rows.
    The bias rows arrive as the one-row casts of the bias vectors. -/
theorem pay3_apply (x0 : Vec Ideal S2048x256 .f32) (x2 x4 : Vec Ideal S256x256 .f32) (bt bg : Vec Ideal S256 .f32)
    (hsc : S256.ShapeCasts S1x256) (x1 : Vec Ideal S256x2048 .i32) (acc : Vec Ideal S256x256 .f32) (b d : Fin 256) :
    k0_pay3 (F := Ideal) x0 x2 x4 (shapeCast S1x256 bt hsc) (shapeCast S1x256 bg hsc) x1 acc (ix2 b d)
      = acc (ix2 b d) + ∑ r : Fin 2048, FloatOps.sitofp (F := Ideal) .f32 (x1 (ix2 b r))
          * GatedSum.gated x2 x4 bt bg (fun k => x0 (ix2 r k)) d := by
  unfold k0_pay3
  simp only [shapeCast_self]
  show acc (ix2 b d) + _ = acc (ix2 b d) + _
  refine congrArg (fun z => acc (ix2 b d) + z) ?_
  refine (RowOps.matmul_plain_apply dot_S256x2048_S2048x256_S256x256_1_0_0_1_n_n rfl none _ _ b d).trans ?_
  refine Finset.sum_congr rfl fun r _ => ?_
  refine congrArg (fun z => FloatOps.sitofp (F := Ideal) .f32 (x1 (ix2 b r)) * z) ?_
  show addf (F := Ideal) _ _ (ix2 r d) * logistic (F := Ideal) _ (ix2 r d) = _
  rw [RowOps.dense_kernel_apply dot_S2048x256_S256x256_S2048x256_1_0_0_1_n_n rfl, RowOps.logistic_apply,
    RowOps.dense_kernel_apply dot_S2048x256_S256x256_S2048x256_1_0_0_1_n_n rfl]
  rfl

end Cert.KernelIdeal.Payload

end
-- ==== Proof.KernelBlocks.lean ====
/-
  What the kernel's windows read, in terms of the program's arguments.

  Before the call the program pads the node array with 704 zero rows and the mask with 704 zero columns (so
  that 98 tiles of 2048 cover them), transposes the two weight matrices and gives each bias a leading unit axis.
  Tile `t` (in grid order: core `t / 49`, step `t % 49`) reads rows `2048·t … 2048·t + 2047` of the padded
  nodes and the same columns of the padded mask; the weights and biases are read whole at every tile.
  A padded position reads zero: the mask's as the integer zero, whose conversion is the number zero.
-/
import proofs.«164850_j76501957477036_1_alg».proof.Proof.Gen.KernelIdeal.Frame
import Idealize.ShloMosaic.Lib.KernelVsHost
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The arrays the call finds -/

/-- The padded node array. -/
theorem nodesP_eq (c : Dev nD) : (V m c main_v0 : Vec Ideal S200704x256 .f32)
    = pad S200704x256 ![0, 0] ![704, 0] ![0, 0] (m ((c : Thread nD τ).loc main_arg0))
        (sitofp (F := Ideal) .f32 (constantI S_ 32 0#32)) pads_S200000x256_S200704x256_07040_000 h_S_ := by
  dsimp only [V, V0]
  simp only [hostOps0, hostOps0_1, hostOps0_2, hostOps0_3, hostOps0_4, List.flatten_cons, List.flatten_nil, List.append_nil,
    List.cons_append, List.nil_append]
  after_results
  rfl

/-- The padded mask. -/
theorem maskP_eq (c : Dev nD) : (V m c main_v1 : Vec Ideal S256x200704 .i32)
    = pad S256x200704 ![0, 0] ![0, 704] ![0, 0] (m ((c : Thread nD τ).loc main_arg1))
        (constantI S_ 32 0#32) pads_S256x200000_S256x200704_000_07040 h_S_ := by
  dsimp only [V, V0]
  simp only [hostOps0, hostOps0_1, hostOps0_2, hostOps0_3, hostOps0_4, List.flatten_cons, List.flatten_nil, List.append_nil,
    List.cons_append, List.nil_append]
  after_results
  rfl

/-- The data layer's weights, transposed to input × output. -/
theorem wt_eq (c : Dev nD) : (V m c main_v2 : Vec Ideal S256x256 .f32)
    = transpose S256x256 [1, 0] (m ((c : Thread nD τ).loc main_arg2)) transposes_S256x256_S256x256_1_0 := by
  dsimp only [V, V0]
  simp only [hostOps0, hostOps0_1, hostOps0_2, hostOps0_3, hostOps0_4, List.flatten_cons, List.flatten_nil, List.append_nil,
    List.cons_append, List.nil_append]
  after_results

/-- The gate layer's weights, transposed to input × output. -/
theorem wg_eq (c : Dev nD) : (V m c main_v3 : Vec Ideal S256x256 .f32)
    = transpose S256x256 [1, 0] (m ((c : Thread nD τ).loc main_arg4)) transposes_S256x256_S256x256_1_0 := by
  dsimp only [V, V0]
  simp only [hostOps0, hostOps0_1, hostOps0_2, hostOps0_3, hostOps0_4, List.flatten_cons, List.flatten_nil, List.append_nil,
    List.cons_append, List.nil_append]
  after_results

/-- The data layer's bias as one row. -/
theorem bt_eq (c : Dev nD) : (V m c main_v4 : Vec Ideal S1x256 .f32)
    = shapeCast S1x256 (m ((c : Thread nD τ).loc main_arg3)) shapeCasts_S256_S1x256 := by
  dsimp only [V, V0]
  simp only [hostOps0, hostOps0_1, hostOps0_2, hostOps0_3, hostOps0_4, List.flatten_cons, List.flatten_nil, List.append_nil,
    List.cons_append, List.nil_append]
  after_results
  rfl

/-- The gate layer's bias as one row. -/
theorem bg_eq (c : Dev nD) : (V m c main_v5 : Vec Ideal S1x256 .f32)
    = shapeCast S1x256 (m ((c : Thread nD τ).loc main_arg5)) shapeCasts_S256_S1x256 := by
  dsimp only [V, V0]
  simp only [hostOps0, hostOps0_1, hostOps0_2, hostOps0_3, hostOps0_4, List.flatten_cons, List.flatten_nil, List.append_nil,
    List.cons_append, List.nil_append]
  after_results
  rfl

/-! ## The padded arrays at a position -/

/-- A node row inside the array is the argument's row. -/
theorem nodesP_inside (c : Dev nD) (q : Fin 200704) (k : Fin 256) (h : q.val < 200000) :
    (V m c main_v0 : Vec Ideal S200704x256 .f32) (ix2 q k)
      = m ((c : Thread nD τ).loc main_arg0) (ix2 (⟨q.val, h⟩ : Fin 200000) k) := by
  rw [nodesP_eq]
  refine pad_apply_of_inside _ _ _ _ _ _ _ (ix2 q k) (ix2 (⟨q.val, h⟩ : Fin 200000) k) fun a => ?_
  match a with
  | ⟨0, _⟩ => show q.val = 0 + q.val * (0 + 1); omega
  | ⟨1, _⟩ => show k.val = 0 + k.val * (0 + 1); omega

/-- A node row past the array's end is zero. -/
theorem nodesP_outside (c : Dev nD) (q : Fin 200704) (k : Fin 256) (h : 200000 ≤ q.val) :
    (V m c main_v0 : Vec Ideal S200704x256 .f32) (ix2 q k) = (0 : EReal) := by
  rw [nodesP_eq]
  refine (pad_apply_of_not_inside _ _ _ _ _ _ _ (ix2 q k) (0 : Fin 2) ?_).trans ?_
  · intro hin
    have h4 : (q.val - 0) / (0 + 1) < 200000 := hin.2.2
    omega
  · show ((((0#32 : BitVec 32).toInt : ℤ) : ℝ) : EReal) = 0
    simp

/-- A mask column inside the array is the argument's column. -/
theorem maskP_inside (c : Dev nD) (b : Fin 256) (q : Fin 200704) (h : q.val < 200000) :
    (V m c main_v1 : Vec Ideal S256x200704 .i32) (ix2 b q)
      = m ((c : Thread nD τ).loc main_arg1) (ix2 b (⟨q.val, h⟩ : Fin 200000)) := by
  rw [maskP_eq]
  refine pad_apply_of_inside _ _ _ _ _ _ _ (ix2 b q) (ix2 b (⟨q.val, h⟩ : Fin 200000)) fun a => ?_
  match a with
  | ⟨0, _⟩ => show b.val = 0 + b.val * (0 + 1); omega
  | ⟨1, _⟩ => show q.val = 0 + q.val * (0 + 1); omega

/-- A mask column past the array's end is the integer zero. -/
theorem maskP_outside (c : Dev nD) (b : Fin 256) (q : Fin 200704) (h : 200000 ≤ q.val) :
    (V m c main_v1 : Vec Ideal S256x200704 .i32) (ix2 b q) = (0#32 : BitVec 32) := by
  rw [maskP_eq]
  refine (pad_apply_of_not_inside _ _ _ _ _ _ _ (ix2 b q) (1 : Fin 2) ?_).trans rfl
  intro hin
  have h4 : (q.val - 0) / (0 + 1) < 200000 := hin.2.2
  omega

/-! ## The windows' blocks -/

/-- The index maps over the grid, decided: tile `t` reads block row `t` of the nodes and block column `t` of the
    mask, the weights and biases whole, and writes block `t / 49` of the output. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 49 ∧ win0_6.index t (1 : Fin 3) = 0 ∧ win0_6.index t (2 : Fin 3) = 0 :=
  (by decide +kernel : ∀ t : Fin grid0.N, _)

/-- Row `r` of tile `t`'s node block is row `2048·t + r` of the padded nodes. -/
theorem nodes_blk (c : Dev nD) (t : Fin cfg0.N) (r : Fin 2048) (k : Fin 256) (q : Fin 200704) (hq : q.val = t.val * 2048 + r.val) :
    (iblk m c 0 t : Vec Ideal S2048x256 .f32) (ix2 r k) = (V m c main_v0 : Vec Ideal S200704x256 .f32) (ix2 q k) := by
  unfold iblk
  rw [View.read_apply]
  show V m c main_v0 _ = V m c main_v0 _
  congr 1
  funext a
  apply Fin.ext
  have e := idx_facts t
  match a with
  | ⟨0, _⟩ => show win0_0.index t (0 : Fin 2) * 2048 + 1 * r.val = q.val; omega
  | ⟨1, _⟩ => show win0_0.index t (1 : Fin 2) * 256 + 1 * k.val = k.val; omega

/-- Column `r` of tile `t`'s mask block is column `2048·t + r` of the padded mask. -/
theorem mask_blk (c : Dev nD) (t : Fin cfg0.N) (b : Fin 256) (r : Fin 2048) (q : Fin 200704) (hq : q.val = t.val * 2048 + r.val) :
    (iblk m c 1 t : Vec Ideal S256x2048 .i32) (ix2 b r) = (V m c main_v1 : Vec Ideal S256x200704 .i32) (ix2 b q) := by
  unfold iblk
  rw [View.read_apply]
  show V m c main_v1 _ = V m c main_v1 _
  congr 1
  funext a
  apply Fin.ext
  have e := idx_facts t
  match a with
  | ⟨0, _⟩ => show win0_1.index t (0 : Fin 2) * 256 + 1 * b.val = b.val; omega
  | ⟨1, _⟩ => show win0_1.index t (1 : Fin 2) * 2048 + 1 * r.val = q.val; omega

/-- The data weights are read whole at every tile. -/
theorem wt_blk (c : Dev nD) (t : Fin cfg0.N) : (iblk m c 2 t : Vec Ideal S256x256 .f32) = V m c main_v2 := by
  funext j
  unfold iblk
  rw [View.read_apply]
  show V m c main_v2 _ = V m c main_v2 _
  congr 1
  funext a
  apply Fin.ext
  have e := idx_facts t
  match a with
  | ⟨0, _⟩ => show win0_2.index t (0 : Fin 2) * 256 + 1 * (j 0).val = (j 0).val; omega
  | ⟨1, _⟩ => show win0_2.index t (1 : Fin 2) * 256 + 1 * (j 1).val = (j 1).val; omega

/-- The data bias row is read whole at every tile. -/
theorem bt_blk (c : Dev nD) (t : Fin cfg0.N) : (iblk m c 3 t : Vec Ideal S1x256 .f32) = V m c main_v4 := by
  funext j
  unfold iblk
  rw [View.read_apply]
  show V m c main_v4 _ = V m c main_v4 _
  congr 1
  funext a
  apply Fin.ext
  have e := idx_facts t
  match a with
  | ⟨0, _⟩ => show win0_3.index t (0 : Fin 2) * 1 + 1 * (j 0).val = (j 0).val; omega
  | ⟨1, _⟩ => show win0_3.index t (1 : Fin 2) * 256 + 1 * (j 1).val = (j 1).val; omega

/-- The gate weights are read whole at every tile. -/
theorem wg_blk (c : Dev nD) (t : Fin cfg0.N) : (iblk m c 4 t : Vec Ideal S256x256 .f32) = V m c main_v3 := by
  funext j
  unfold iblk
  rw [View.read_apply]
  show V m c main_v3 _ = V m c main_v3 _
  congr 1
  funext a
  apply Fin.ext
  have e := idx_facts t
  match a with
  | ⟨0, _⟩ => show win0_4.index t (0 : Fin 2) * 256 + 1 * (j 0).val = (j 0).val; omega
  | ⟨1, _⟩ => show win0_4.index t (1 : Fin 2) * 256 + 1 * (j 1).val = (j 1).val; omega

/-- The gate bias row is read whole at every tile. -/
theorem bg_blk (c : Dev nD) (t : Fin cfg0.N) : (iblk m c 5 t : Vec Ideal S1x256 .f32) = V m c main_v5 := by
  funext j
  unfold iblk
  rw [View.read_apply]
  show V m c main_v5 _ = V m c main_v5 _
  congr 1
  funext a
  apply Fin.ext
  have e := idx_facts t
  match a with
  | ⟨0, _⟩ => show win0_5.index t (0 : Fin 2) * 1 + 1 * (j 0).val = (j 0).val; omega
  | ⟨1, _⟩ => show win0_5.index t (1 : Fin 2) * 256 + 1 * (j 1).val = (j 1).val; omega

end Cert.KernelIdeal.Blocks

end
-- ==== Proof.KernelAccum.lean ====
/-
  The accumulator after every tile, and the output blocks.

  Position `i` of the padded node axis contributes to entry `(b, d)` the term
  `mask(b, i) · gated(nodes i) d`, which is zero for the 704 padded positions (their mask entry is zero).
  Tile `T` adds the 2048 terms of positions `2048·T … 2048·T + 2047`.  The scratch accumulator is reset at
  tiles 0 and 49 (the first of each core's half), so after tile `n` it holds the tiles' sums since the last
  reset; at tiles 48 and 97 it is copied to the output block of its core.
-/
import proofs.«164850_j76501957477036_1_alg».proof.Proof.KernelPieces
import proofs.«164850_j76501957477036_1_alg».proof.Proof.KernelPayload
import proofs.«164850_j76501957477036_1_alg».proof.Proof.KernelBlocks

noncomputable section

open scoped BigOperators

namespace Cert.KernelIdeal.Accum

open Cert.KernelIdeal Cert.KernelIdeal.Gen
open Idealize.ShloMosaic Idealize.ShloMosaic.TcCoe Idealize.SL.Sem Idealize.ShloMosaic.ValueIdx Finset

variable (m : (ℓ : Loc nD τ sig) → Buf (Elt Ideal) ℓ)

/-! ## The terms -/

/-- The weights as the kernel and the reference both use them: transposed to input × output. -/
abbrev wT (c : Dev nD) : Vec Ideal S256x256 .f32 :=
  transpose S256x256 [1, 0] (m ((c : Thread nD τ).loc main_arg2)) transposes_S256x256_S256x256_1_0
abbrev gT (c : Dev nD) : Vec Ideal S256x256 .f32 :=
  transpose S256x256 [1, 0] (m ((c : Thread nD τ).loc main_arg4)) transposes_S256x256_S256x256_1_0

/-- Owner `b`'s mask entry at node position `i`, as a number; zero past the last node. -/
def maskN (c : Dev nD) (b : Fin 256) (i : ℕ) : EReal :=
  if h : i < 200000 then FloatOps.sitofp (F := Ideal) .f32 (m ((c : Thread nD τ).loc main_arg1) (ix2 b (⟨i, h⟩ : Fin 200000))) else 0

/-- The node row at position `i`; zero past the last node. -/
def rowN (c : Dev nD) (i : ℕ) (k : Fin 256) : EReal :=
  if h : i < 200000 then m ((c : Thread nD τ).loc main_arg0) (ix2 (⟨i, h⟩ : Fin 200000) k) else 0

/-- Position `i`'s term of entry `(b, d)`. -/
def term (c : Dev nD) (b d : Fin 256) (i : ℕ) : EReal :=
  maskN m c b i * GatedSum.gated (wT m c) (gT m c) (m ((c : Thread nD τ).loc main_arg3)) (m ((c : Thread nD τ).loc main_arg5)) (rowN m c i) d

/-- Tile `T`'s sum of entry `(b, d)`: its 2048 positions' terms. -/
def tileSum (c : Dev nD) (b d : Fin 256) (T : ℕ) : EReal := ∑ r ∈ range 2048, term m c b d (T * 2048 + r)

/-- A padded position contributes nothing. -/
theorem term_outside (c : Dev nD) (b d : Fin 256) (i : ℕ) (h : 200000 ≤ i) : term m c b d i = 0 := by
  unfold term maskN
  rw [dif_neg (by omega), zero_mul]

/-! ## One tile's update -/

/-- The mask block's entry, converted, is the position's mask number. -/
theorem mask_entry (c : Dev nD) (t : Fin cfg0.N) (b : Fin 256) (r : Fin 2048) :
    FloatOps.sitofp (F := Ideal) .f32 ((iblk m c 1 t : Vec Ideal S256x2048 .i32) (ix2 b r)) = maskN m c b (t.val * 2048 + r.val) := by
  have hN : t.val < 98 := lt_of_lt_of_eq t.isLt (show cfg0.N = 98 from N_0)
  have hr := r.isLt
  rw [Blocks.mask_blk m c t b r ⟨t.val * 2048 + r.val, by omega⟩ rfl]
  unfold maskN
  by_cases h : t.val * 2048 + r.val < 200000
  · rw [dif_pos h, Blocks.maskP_inside m c b _ h]
  · rw [dif_neg h, Blocks.maskP_outside m c b _ (by show 200000 ≤ t.val * 2048 + r.val; omega)]
    show ((((0#32 : BitVec 32).toInt : ℤ) : ℝ) : EReal) = 0
    simp

/-- The node block's row is the position's row. -/
theorem row_entry (c : Dev nD) (t : Fin cfg0.N) (r : Fin 2048) :
    (fun k => (iblk m c 0 t : Vec Ideal S2048x256 .f32) (ix2 r k)) = rowN m c (t.val * 2048 + r.val) := by
  have hN : t.val < 98 := lt_of_lt_of_eq t.isLt (show cfg0.N = 98 from N_0)
  have hr := r.isLt
  funext k
  rw [Blocks.nodes_blk m c t r k ⟨t.val * 2048 + r.val, by omega⟩ rfl]
  unfold rowN
  by_cases h : t.val * 2048 + r.val < 200000
  · rw [dif_pos h, Blocks.nodesP_inside m c _ k h]
  · rw [dif_neg h, Blocks.nodesP_outside m c _ k (by show 200000 ≤ t.val * 2048 + r.val; omega)]

/-- The body's update at tile `t`, entry by entry: the accumulator's entry plus the tile's sum. -/
theorem update_apply (c : Dev nD) (t : Fin cfg0.N) (acc : Vec Ideal S256x256 .f32) (b d : Fin 256) :
    k0_pay3 (F := Ideal) (iblk m c 0 t) (iblk m c 2 t) (iblk m c 4 t) (iblk m c 3 t) (iblk m c 5 t) (iblk m c 1 t) acc (ix2 b d)
      = acc (ix2 b d) + tileSum m c b d t.val := by
  rw [Blocks.wt_blk m c t, Blocks.wg_blk m c t, Blocks.bt_blk m c t, Blocks.bg_blk m c t, Blocks.wt_eq m c, Blocks.wg_eq m c,
    Blocks.bt_eq m c, Blocks.bg_eq m c]
  refine (Payload.pay3_apply (iblk m c 0 t) (wT m c) (gT m c) (m ((c : Thread nD τ).loc main_arg3)) (m ((c : Thread nD τ).loc main_arg5))
    shapeCasts_S256_S1x256 (iblk m c 1 t) acc b d).trans ?_
  refine congrArg (fun z => acc (ix2 b d) + z) ?_
  unfold tileSum
  rw [Finset.sum_range]
  refine Finset.sum_congr rfl fun r _ => ?_
  unfold term
  rw [mask_entry m c t b r, row_entry m c t r]

/-! ## The accumulator, tile by tile -/

/-- After the first tile of a half: zero plus the tile's sum. -/
theorem scr_A (c : Dev nD) (t : Fin cfg0.N) (h0 : t.val % 49 = 0) (h1 : ¬t.val % 49 = 48) (b d : Fin 256) :
    (outsAt0 m c t.val t.isLt).2 (ix2 b d) = 0 + tileSum m c b d t.val := by
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 b d)).trans ?_
  rw [update_apply m c t _ b d, Payload.pay2_apply]

/-- After a middle tile: what the tile before left, plus the tile's sum. -/
theorem scr_B (c : Dev nD) (t : Fin cfg0.N) (h0 : ¬t.val % 49 = 0) (h1 : ¬t.val % 49 = 48) (b d : Fin 256) :
    (outsAt0 m c t.val t.isLt).2 (ix2 b d)
      = (outsAt0 m c (t.val - 1) (Nat.lt_of_le_of_lt (Nat.sub_le _ _) t.isLt)).2 (ix2 b d) + tileSum m c b d t.val := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 b d)).trans ?_
  exact update_apply m c t _ b d

/-- After the last tile of a half: the same. -/
theorem scr_C (c : Dev nD) (t : Fin cfg0.N) (h0 : ¬t.val % 49 = 0) (h1 : t.val % 49 = 48) (b d : Fin 256) :
    (outsAt0 m c t.val t.isLt).2 (ix2 b d)
      = (outsAt0 m c (t.val - 1) (Nat.lt_of_le_of_lt (Nat.sub_le _ _) t.isLt)).2 (ix2 b d) + tileSum m c b d t.val := by
  rw [outsAt0_C m c t h0 h1]
  dsimp only
  refine (congrFun (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 b d)).trans ?_
  exact update_apply m c t _ b d

/-- At the last tile of a half the output block is the accumulator. -/
theorem out_C (c : Dev nD) (t : Fin cfg0.N) (h0 : ¬t.val % 49 = 0) (h1 : t.val % 49 = 48) (b d : Fin 256) :
    (outsAt0 m c t.val t.isLt).1 (ix3 (0 : Fin 1) b d) = (outsAt0 m c t.val t.isLt).2 (ix2 b d) := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix3 (0 : Fin 1) b d)).trans ?_
  refine (Payload.pay1_apply _ b d).trans ?_
  exact (congrFun (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 b d)).symm

/-- THE ACCUMULATOR after tile `n`: the tiles' sums since the last reset. -/
theorem scratch_eq (c : Dev nD) (b d : Fin 256) : ∀ (n : ℕ) (h : n < cfg0.N),
    (outsAt0 m c n h).2 (ix2 b d) = ∑ j ∈ range (n % 49 + 1), tileSum m c b d (n / 49 * 49 + j) :=
  GatedSum.acc_reset_eq (tileSum m c b d) cfg0.N (fun n h => (outsAt0 m c n h).2 (ix2 b d))
    (fun h => scr_A m c ⟨0, h⟩ rfl (by show ¬0 % 49 = 48; decide) b d)
    (fun n h hr => scr_A m c ⟨n + 1, h⟩ hr (by show ¬(n + 1) % 49 = 48; omega) b d)
    (fun n h hr => by
      by_cases h1 : (n + 1) % 49 = 48
      · exact scr_C m c ⟨n + 1, h⟩ hr h1 b d
      · exact scr_B m c ⟨n + 1, h⟩ hr h1 b d)

end Cert.KernelIdeal.Accum

end
-- ==== Proof.KernelFinal.lean ====
/-
  The kernel program's result.

  The output array has one [256, 256] block per core; block `q` is written once, after tile `49·q + 48`, with
  the accumulator of core `q`'s half: the sum of its 49 tiles.  After the call the program adds the two blocks.
  The 98 tiles are the 98·2048 = 200704 padded positions in order, the padded ones contribute zero, so the
  result is the sum over the 200000 nodes.
-/
import proofs.«164850_j76501957477036_1_alg».proof.Proof.KernelAccum

noncomputable section

open scoped BigOperators

namespace Cert.KernelIdeal.Final

open Cert.KernelIdeal Cert.KernelIdeal.Gen Cert.KernelIdeal.Accum
open Idealize.ShloMosaic Idealize.ShloMosaic.TcCoe Idealize.SL.Sem Idealize.ShloMosaic.ValueIdx Finset
open Idealize.ShloMosaic.Pipeline (Dat)

variable (m : (ℓ : Loc nD τ sig) → Buf (Elt Ideal) ℓ) (ρ : Dev nD → PrngReg)

/-- Core `q`'s half of entry `(b, d)`: its 49 tiles' sums. -/
def halfSum (c : Dev nD) (b d : Fin 256) (q : ℕ) : EReal := ∑ j ∈ range 49, tileSum m c b d (q * 49 + j)

/-- What the output array ends holding: block `q` is core `q`'s half. -/
def outArr (c : Dev nD) : Vec Ideal S2x256x256 .f32 := fun i => halfSum m c (i 1) (i 2) (i 0).val

/-- The one write-back of each half writes that block. -/
theorem flushed_eq (c : Dev nD) (t : Fin cfg0.N) (hf : (cfg0.win 6).flush t = true) :
    (dats m 0 c).flushed 6 t = ((cfg0.win 6).blk t).view.read (Elt Ideal) (outArr m c) := by
  have h1 : t.val % 49 = 48 := (flush0_6 t).mp hf
  have h0 : ¬t.val % 49 = 0 := by omega
  have hN : t.val < 98 := lt_of_lt_of_eq t.isLt (show cfg0.N = 98 from N_0)
  show (cfg0.win 6).cut (grid0.coords t) ((dats m 0 c).after 6 t) = _
  rw [after0_6]
  funext y
  obtain ⟨z, b, d, rfl⟩ : ∃ (z : Fin 1) (b d : Fin 256), y = ix3 z b d := ⟨y 0, y 1, y 2, eq_ix3 y⟩
  obtain rfl : z = 0 := Subsingleton.elim _ _
  rw [View.read_apply]
  show (outsAt0 m c t.val t.isLt).1 (ix3 (0 : Fin 1) b d) = outArr m c (((cfg0.win 6).blk t).view.emb (ix3 (0 : Fin 1) b d))
  rw [Accum.out_C m c t h0 h1 b d, Accum.scratch_eq m c b d t.val t.isLt]
  have e := Blocks.idx_facts t
  have e0 : ((cfg0.win 6).blk t).view.emb (ix3 (0 : Fin 1) b d) = ix3 (⟨t.val / 49, by omega⟩ : Fin 2) b d := by
    funext a
    apply Fin.ext
    match a with
    | ⟨0, _⟩ => show win0_6.index t (0 : Fin 3) * 1 + 1 * 0 = t.val / 49; omega
    | ⟨1, _⟩ => show win0_6.index t (1 : Fin 3) * 256 + 1 * b.val = b.val; omega
    | ⟨2, _⟩ => show win0_6.index t (2 : Fin 3) * 256 + 1 * d.val = d.val; omega
  rw [e0]
  show _ = halfSum m c b d (t.val / 49)
  unfold halfSum
  rw [h1]

/-- An index of the output array is in tile `t`'s block iff each coordinate is in the block's range. -/
theorem mem_blk (t : Fin cfg0.N) (i : S2x256x256.Idx) :
    i ∈ ((cfg0.win 6).blk t).view.set ↔ ∀ a : Fin 3, win0_6.index t a * S1x256x256.size a ≤ (i a).val
      ∧ (i a).val < win0_6.index t a * S1x256x256.size a + S1x256x256.size a := by
  show i ∈ ((View.whole main_v6).slice (win0_6.rect t)).set ↔ _
  rw [View.set_slice_whole, Rect.mem_set_unit]
  exact Iff.rfl

/-- The two written blocks cover the output array. -/
theorem cover (i : S2x256x256.Idx) : ∃ t : Fin cfg0.N, (cfg0.win 6).flush t = true ∧ i ∈ ((cfg0.win 6).blk t).view.set := by
  have hi0 : (i 0).val < 2 := (i 0).isLt
  have hi1 : (i 1).val < 256 := (i 1).isLt
  have hi2 : (i 2).val < 256 := (i 2).isLt
  have hN : cfg0.N = 98 := N_0
  have hlt : (i 0).val * 49 + 48 < cfg0.N := by rw [hN]; omega
  refine ⟨⟨(i 0).val * 49 + 48, hlt⟩, (flush0_6 _).mpr (by show ((i 0).val * 49 + 48) % 49 = 48; omega), ?_⟩
  rw [mem_blk]
  have e := Blocks.idx_facts ⟨(i 0).val * 49 + 48, hlt⟩
  have e6 : win0_6.index ⟨(i 0).val * 49 + 48, hlt⟩ (0 : Fin 3) = (i 0).val := by
    rw [e.2.2.2.2.2.2.2.2.2.2.2.2.1]; show ((i 0).val * 49 + 48) / 49 = (i 0).val; omega
  have e7 : win0_6.index ⟨(i 0).val * 49 + 48, hlt⟩ (1 : Fin 3) = 0 := e.2.2.2.2.2.2.2.2.2.2.2.2.2.1
  have e8 : win0_6.index ⟨(i 0).val * 49 + 48, hlt⟩ (2 : Fin 3) = 0 := e.2.2.2.2.2.2.2.2.2.2.2.2.2.2
  intro a
  match a with
  | ⟨0, _⟩ => show win0_6.index _ (0 : Fin 3) * 1 ≤ (i 0).val ∧ (i 0).val < win0_6.index _ (0 : Fin 3) * 1 + 1; rw [e6]; omega
  | ⟨1, _⟩ => show win0_6.index _ (1 : Fin 3) * 256 ≤ (i 1).val ∧ (i 1).val < win0_6.index _ (1 : Fin 3) * 256 + 256; rw [e7]; omega
  | ⟨2, _⟩ => show win0_6.index _ (2 : Fin 3) * 256 ≤ (i 2).val ∧ (i 2).val < win0_6.index _ (2 : Fin 3) * 256 + 256; rw [e8]; omega

/-- The output array after the call. -/
theorem final6 (c : Dev nD) : (dats m 0 c).arrAt 6 cfg0.N = outArr m c :=
  (dats m 0 c).arrAt_eq_of_cover 6 (outArr m c) (flushed_eq m c) cover

/-- The program's result: the two halves added. -/
def result (c : Dev nD) : Vec Ideal S256x256 .f32 := fun j => halfSum m c (j 0) (j 1) 0 + halfSum m c (j 0) (j 1) 1

/-- The lines after the call slice the two blocks out, drop their unit axis and add them. -/
theorem tail_eq (c : Dev nD) :
    Pipeline.afterTail₀ cfgs (dats m) 0 (V0 m) [hostOps1] c main_v11 = result m c := by
  unfold Pipeline.afterTail₀
  show StableHlo.after hostOps1 _ (Proc.devRef .tc main_v11) = _
  after_results
  have hW : Pipeline.withArrays (cfgs 0).spec c (V0 m c) (fun w => (dats m 0 c).arrAt w (cfgs 0).N) (Proc.devRef .tc main_v6)
      = outArr m c := (Pipeline.withArrays_arr spec0 launch0.win.arr_inj c _ _ 6).trans (final6 m c)
  rw [hW]
  funext j
  obtain ⟨b, d, rfl⟩ : ∃ (b d : Fin 256), j = ix2 b d := ⟨j 0, j 1, eq_ix2 j⟩
  unfold result
  dsimp only [addf]
  have hrm : (S1x256x256.rowMajor (ix3 (0 : Fin 1) b d)).val = (S256x256.rowMajor (ix2 b d)).val := by
    rw [Shape.rowMajor_val_three, Shape.rowMajor_val_two]
    show (0 * 256 + b.val) * 256 + d.val = b.val * 256 + d.val
    omega
  refine congrArg₂ (fun x y : EReal => x + y) ?_ ?_
  · refine (shapeCast_apply _ _ (ix2 b d) (ix3 (0 : Fin 1) b d) hrm).trans ?_
    refine (extractStridedSlice_apply _ _ _ (ix3 (0 : Fin 1) b d) (ix3 (0 : Fin 2) b d) fun a => ?_).trans rfl
    match a with
    | ⟨0, _⟩ => rfl
    | ⟨1, _⟩ => show b.val = 0 + b.val; omega
    | ⟨2, _⟩ => show d.val = 0 + d.val; omega
  · refine (shapeCast_apply _ _ (ix2 b d) (ix3 (0 : Fin 1) b d) hrm).trans ?_
    refine (extractStridedSlice_apply _ _ _ (ix3 (0 : Fin 1) b d) (ix3 (1 : Fin 2) b d) fun a => ?_).trans rfl
    match a with
    | ⟨0, _⟩ => rfl
    | ⟨1, _⟩ => show b.val = 0 + b.val; omega
    | ⟨2, _⟩ => show d.val = 0 + d.val; omega

/-- The kernel program's run, read: the result at the two halves' sum, the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-! ## The result is the one sum over the nodes -/

/-- The two halves are the 98 tiles, the tiles are the 200704 padded positions in order, the padded ones add
    nothing: the result is the masked sum of gated features over the 200000 nodes. -/
theorem result_eq (c : Dev nD) : result m c
    = GatedSum.agg (m ((c : Thread nD τ).loc main_arg0)) (sitofp (F := Ideal) .f32 (m ((c : Thread nD τ).loc main_arg1)))
        (wT m c) (gT m c) (m ((c : Thread nD τ).loc main_arg3)) (m ((c : Thread nD τ).loc main_arg5)) := by
  funext j
  obtain ⟨b, d, rfl⟩ : ∃ (b d : Fin 256), j = ix2 b d := ⟨j 0, j 1, eq_ix2 j⟩
  show halfSum m c b d 0 + halfSum m c b d 1 = _
  have e98 : ∑ T ∈ range (49 + 49), ∑ r ∈ range 2048, term m c b d (T * 2048 + r)
      = halfSum m c b d 0 + halfSum m c b d 1 := by
    unfold halfSum tileSum
    rw [sum_range_add]
    simp only [Nat.zero_mul, Nat.zero_add, Nat.one_mul]
  rw [← e98, GatedSum.sum_tiles (term m c b d) 2048 (49 + 49), show (49 + 49) * 2048 = 200000 + 704 from rfl,
    GatedSum.sum_drop_tail _ 200000 704 (fun i hi => term_outside m c b d i hi), Finset.sum_range]
  unfold GatedSum.agg
  refine Finset.sum_congr rfl fun n _ => ?_
  unfold term maskN rowN
  simp only [dif_pos n.isLt, Fin.eta]
  rfl

end Cert.KernelIdeal.Final

end
-- ==== Proof.lean ====
/-
  Gated node features summed per owner: the kernel program and its reference compute the same array over the
  extended reals.

  Every node's 256 features pass through a data layer and a gate layer; the node contributes
  `data · logistic(gate)`, and owner `b` collects `∑ₙ mask(b, n) · gated(xₙ)` over the 200000 nodes.
  The reference contracts the whole mask against the whole gated array.  The kernel pads the node axis to
  98 tiles of 2048, gives each of two cores 49 tiles to accumulate in a scratch block that is reset at the
  core's first tile and copied out at its last, and adds the two cores' blocks afterwards.  Padded positions
  enter with mask entry zero, and zero times anything is zero; sums over the extended reals may be regrouped
  freely.  So both programs end at `GatedSum.agg` of the arguments, and no finiteness of the inputs is used.

  The frames of the two kernel programs are the generated frame runs; the reference's frame is its generated
  run with the result dropped; the idealization changed no operation, so there is nothing to preserve.
-/
import proofs.«164850_j76501957477036_1_alg».proof.Defs
import proofs.«164850_j76501957477036_1_alg».proof.Proof.Gen.Kernel
import proofs.«164850_j76501957477036_1_alg».proof.Proof.Gen.Kernel.Frame
import proofs.«164850_j76501957477036_1_alg».proof.Proof.Gen.KernelIdeal
import proofs.«164850_j76501957477036_1_alg».proof.Proof.Gen.KernelIdeal.Frame
import proofs.«164850_j76501957477036_1_alg».proof.Proof.Gen.ReferenceIdeal
import proofs.«164850_j76501957477036_1_alg».proof.Proof.Gen.ReferenceIdeal.Run
import proofs.«164850_j76501957477036_1_alg».proof.Proof.Gen.Pre_finite_inputs
import proofs.«164850_j76501957477036_1_alg».proof.Proof.RefSide
import proofs.«164850_j76501957477036_1_alg».proof.Proof.KernelFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the masked sum of gated features of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Final.result m c
  rw [Cert.ReferenceIdeal.RefValue.ref_eq, Cert.KernelIdeal.Final.result_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
